-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S8x1024x4096 : Shape := ⟨3, ![8, 1024, 4096]⟩
abbrev S8x4096x1024 : Shape := ⟨3, ![8, 4096, 1024]⟩
abbrev S8 : Shape := ⟨1, ![8]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn_part1 {F : FTy → Type} [FloatOps F] (main_v13 : IVec S_ 1) (main_v16 : IVec S8x1024x4096 1) : IVec S_ 1 :=
  let main_c_5 : IVec S_ 1 := constantI S_ 1 1#1
  let main_v17 : IVec S_ 1 := (fun x v => Host.reduce IntOp.andi x v reducesTo_S8x1024x4096_S_d0_1_2 h_S_) main_v16 main_c_5
  let main_v18 : IVec S_ 1 := andi main_v13 main_v17
  main_v18

def fn {F : FTy → Type} [FloatOps F] (main_arg0 : FVec F S32768x1024 .f32) (main_arg1 : FVec F S8x1024x4096 .f32) (main_arg2 : FVec F S8x4096x1024 .f32) (main_arg3 : FVec F S8x1024x4096 .f32) (main_arg4 : IVec S8 32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  let main_v14 : FVec F S8x1024x4096 .f32 := Host.absf main_arg3
  let main_cst_4 : FVec F S_ .f32 := constant S_ .f32 0x7F800000#32
  let main_v15 : FVec F S8x1024x4096 .f32 := broadcastInDim S8x1024x4096 ![] bcast_S_S8x1024x4096 main_cst_4
  let main_v16 : IVec S8x1024x4096 1 := cmpf .olt main_v14 main_v15
  fn_part1 (F := F) main_v13 main_v16
-- ==== Kernel.lean ====
abbrev S32768x1024 : Shape := ⟨2, ![32768, 1024]⟩
abbrev S8x1024x4096 : Shape := ⟨3, ![8, 1024, 4096]⟩
abbrev S8x4096x1024 : Shape := ⟨3, ![8, 4096, 1024]⟩
abbrev S8 : Shape := ⟨1, ![8]⟩
abbrev S1x1024x1024 : Shape := ⟨3, ![1, 1024, 1024]⟩
abbrev S1x1024x512 : Shape := ⟨3, ![1, 1024, 512]⟩
abbrev S1x512x1024 : Shape := ⟨3, ![1, 512, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 12
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S8x1024x4096, .f32⟩
  | .hbm, ⟨2, _⟩ => ⟨S8x4096x1024, .f32⟩
  | .hbm, ⟨3, _⟩ => ⟨S8x1024x4096, .f32⟩
  | .hbm, ⟨4, _⟩ => ⟨S8, .i32⟩
  | .hbm, ⟨5, _⟩ => ⟨S8x4096x1024, .f32⟩
  | .hbm, ⟨6, _⟩ => ⟨S8x4096x1024, .bf16⟩
  | .hbm, ⟨7, _⟩ => ⟨S8x1024x4096, .bf16⟩
  | .hbm, ⟨8, _⟩ => ⟨S8x4096x1024, .bf16⟩
  | .hbm, ⟨9, _⟩ => ⟨S8x1024x4096, .bf16⟩
  | .hbm, ⟨10, _⟩ => ⟨S8x4096x1024, .f32⟩
  | .hbm, ⟨11, _⟩ => ⟨S32768x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x1024, .f32⟩
  | .local _ .vmem, ⟨9, _⟩ => ⟨S1x1024x1024, .f32⟩
  | .local _ .vmem, ⟨10, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S32768x1024_S8x4096x1024 : S32768x1024.ShapeCasts S8x4096x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S1024x1024_S1x1024x1024 : S1024x1024.ShapeCasts S1x1024x1024
  shapeCasts_S8x4096x1024_S32768x1024 : S8x4096x1024.ShapeCasts S32768x1024
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x4096x1024.size a
  hwx0_0 : ∀ i : grid0.Coords, EltTy.bits .bf16 = 32 ∨ (Rect.block (s := S8x4096x1024) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x1024x4096.size a
  hwx0_1 : ∀ i : grid0.Coords, EltTy.bits .bf16 = 32 ∨ (Rect.block (s := S8x1024x4096) S1x1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S8x1024x4096.size a
  hwx0_2 : ∀ i : grid0.Coords, EltTy.bits .bf16 = 32 ∨ (Rect.block (s := S8x1024x4096) S1x1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x4096x1024.size a
  hwx0_3 : ∀ i : grid0.Coords, EltTy.bits .bf16 = 32 ∨ (Rect.block (s := S8x4096x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S8x4096x1024.size a
  hwx0_4 : ∀ i : grid0.Coords, EltTy.bits .f32 = 32 ∨ (Rect.block (s := S8x4096x1024) S1x1024x1024.size (cc0_transform_4 i) (hinb0_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32768x1024 : Shape := ⟨2, ![32768, 1024]⟩
abbrev S8x1024x4096 : Shape := ⟨3, ![8, 1024, 4096]⟩
abbrev S8x4096x1024 : Shape := ⟨3, ![8, 4096, 1024]⟩
abbrev S8 : Shape := ⟨1, ![8]⟩
abbrev S8x4096x4096 : Shape := ⟨3, ![8, 4096, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x1024x4096, .f32⟩
  | .hbm, ⟨2, _⟩ => ⟨S8x4096x1024, .f32⟩
  | .hbm, ⟨3, _⟩ => ⟨S8x1024x4096, .f32⟩
  | .hbm, ⟨4, _⟩ => ⟨S8, .i32⟩
  | .hbm, ⟨5, _⟩ => ⟨S8x4096x1024, .f32⟩
  | .hbm, ⟨6, _⟩ => ⟨S8x4096x4096, .f32⟩
  | .hbm, ⟨7, _⟩ => ⟨S8x4096x4096, .f32⟩
  | .hbm, ⟨8, _⟩ => ⟨S8x4096x4096, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S8x4096x1024, .f32⟩
  | .hbm, ⟨19, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]

class Facts₀ : Prop where
  shapeCasts_S32768x1024_S8x4096x1024 : S32768x1024.ShapeCasts S8x4096x1024
  bcast_S_S8x4096x4096 : S_.BroadcastsInDim S8x4096x4096 (![] : Fin 0 → Fin S8x4096x4096.rank)
  shapeCasts_S8x4096x1024_S32768x1024 : S8x4096x1024.ShapeCasts S32768x1024
  dot_S8x4096x1024_S8x1024x4096_S8x4096x4096_2_1_1_2_0_0_wf : DotDims.WF S8x4096x1024 S8x1024x4096 S8x4096x4096 [2] [1] [1] [2] [0] [0]
  dot_S8x4096x4096_S8x4096x1024_S8x4096x1024_2_1_1_2_0_0_wf : DotDims.WF S8x4096x4096 S8x4096x1024 S8x4096x1024 [2] [1] [1] [2] [0] [0]

variable [Facts₀]

def dot_S8x4096x1024_S8x1024x4096_S8x4096x4096_2_1_1_2_0_0 : DotDims S8x4096x1024 S8x1024x4096 S8x4096x4096 where
  lhsContracting := [2]
  rhsContracting := [1]
  lhsNonContracting := [1]
  rhsNonContracting := [2]
  lhsBatch := [0]
  rhsBatch := [0]
  wf := dot_S8x4096x1024_S8x1024x4096_S8x4096x4096_2_1_1_2_0_0_wf
def dot_S8x4096x4096_S8x4096x1024_S8x4096x1024_2_1_1_2_0_0 : DotDims S8x4096x4096 S8x4096x1024 S8x4096x1024 where
  lhsContracting := [2]
  rhsContracting := [1]
  lhsNonContracting := [1]
  rhsNonContracting := [2]
  lhsBatch := [0]
  rhsBatch := [0]
  wf := dot_S8x4096x4096_S8x4096x1024_S8x4096x1024_2_1_1_2_0_0_wf

class Facts : Prop extends Facts₀ where

variable [Facts]
-- ==== Proof.Pieces.lean ====
/-
  What one run of the body leaves behind, read as values (any float instance).

  The body keeps a [1024, 1024] accumulator in a scratch buffer across the eight hidden-axis steps of one
  (expert, token tile) pair.  On a first step it stores the zero block and then the zero block plus that
  step's product; on every later step it stores what the step before left plus this step's product; on the
  last step it also copies the accumulator into the output block.  Each lemma below says that the contents
  the run found for a buffer are the corresponding payload of the step's input blocks.
-/
import proofs.«165596_j43654047597179_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A first step (hidden tile 0): the accumulator ends at the zero block plus this step's product. -/
theorem scratch_first (c : Dev nD) (i : grid0.Coords) (arg3 : Memref sig .tc .vmem S1x1024x1024 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : cond0_0 i) (hc1 : ¬cond0_1 i) (x0 : Vec F S1x1024x1024 .bf16) (x1 : Vec F S1x1024x512 .bf16) (x2 : Vec F S1x1024x512 .bf16) (x3 : Vec F S1x512x1024 .bf16) :
    sout0_A_0 c i arg3 harg3 arg4 harg4 arg5 harg5 arg6 harg6 arg7 harg7 arg8 harg8 hc0 hc1 x0 x1 x2 x3 = k0_pay2 x0 x1 x2 x3 k0_pay1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) hz2]
  simp only [View.readAt_eq_ld, harg3.read_unread, harg4.read_unread, harg5.read_unread, harg6.read_unread, harg8.read_unread,
    View.ld_unit_zero (S := S1x1024x1024) hz3, View.ld_unit_zero (S := S1x1024x512) hz3, View.ld_unit_zero (S := S1x512x1024) hz3,
    View.ld_unit_zero (S := S1024x1024) hz2, View.readCov_unit_zero (S := S1024x1024) _ hz2]

/-- A middle step (hidden tiles 1 to 6): the accumulator ends at what it held plus this step's product. -/
theorem scratch_mid (c : Dev nD) (i : grid0.Coords) (arg3 : Memref sig .tc .vmem S1x1024x1024 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i) (hc1 : ¬cond0_1 i) (x0 : Vec F S1x1024x1024 .bf16) (x1 : Vec F S1x1024x512 .bf16) (x2 : Vec F S1x1024x512 .bf16) (x3 : Vec F S1x512x1024 .bf16) (xs0 : Vec F S1024x1024 .f32) :
    sout0_B_0 c i arg3 harg3 arg4 harg4 arg5 harg5 arg6 harg6 arg7 harg7 arg8 harg8 hc0 hc1 x0 x1 x2 x3 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz2]
  simp only [View.readAt_eq_ld, harg3.read_unread, harg4.read_unread, harg5.read_unread, harg6.read_unread, harg8.read_unread,
    View.ld_unit_zero (S := S1x1024x1024) hz3, View.ld_unit_zero (S := S1x1024x512) hz3, View.ld_unit_zero (S := S1x512x1024) hz3,
    View.ld_unit_zero (S := S1024x1024) hz2, View.readCov_unit_zero (S := S1024x1024) _ hz2]

/-- The last step (hidden tile 7), the accumulator: what it held plus this step's product. -/
theorem scratch_last (c : Dev nD) (i : grid0.Coords) (arg3 : Memref sig .tc .vmem S1x1024x1024 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i) (hc1 : cond0_1 i) (x0 : Vec F S1x1024x1024 .bf16) (x1 : Vec F S1x1024x512 .bf16) (x2 : Vec F S1x1024x512 .bf16) (x3 : Vec F S1x512x1024 .bf16) (xs0 : Vec F S1024x1024 .f32) :
    sout0_C_0 c i arg3 harg3 arg4 harg4 arg5 harg5 arg6 harg6 arg7 harg7 arg8 harg8 hc0 hc1 x0 x1 x2 x3 xs0 = k0_pay2 x0 x1 x2 x3 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg3.read_unread, harg4.read_unread, harg5.read_unread, harg6.read_unread, harg8.read_unread,
    View.ld_unit_zero (S := S1x1024x1024) hz3, View.ld_unit_zero (S := S1x1024x512) hz3, View.ld_unit_zero (S := S1x512x1024) hz3,
    View.ld_unit_zero (S := S1024x1024) hz2, View.readCov_unit_zero (S := S1024x1024) _ hz2]

/-- The last step, the output block: the finished accumulator, re-laid as a [1, 1024, 1024] block. -/
theorem out_last (c : Dev nD) (i : grid0.Coords) (arg3 : Memref sig .tc .vmem S1x1024x1024 .bf16) (harg3 : arg3.IsWhole) (arg4 : Memref sig .tc .vmem S1x1024x512 .bf16) (harg4 : arg4.IsWhole) (arg5 : Memref sig .tc .vmem S1x1024x512 .bf16) (harg5 : arg5.IsWhole) (arg6 : Memref sig .tc .vmem S1x512x1024 .bf16) (harg6 : arg6.IsWhole) (arg7 : Memref sig .tc .vmem S1x1024x1024 .f32) (harg7 : arg7.IsWhole) (arg8 : Memref sig .tc .vmem S1024x1024 .f32) (harg8 : arg8.IsWhole) (hc0 : ¬cond0_0 i) (hc1 : cond0_1 i) (x0 : Vec F S1x1024x1024 .bf16) (x1 : Vec F S1x1024x512 .bf16) (x2 : Vec F S1x1024x512 .bf16) (x3 : Vec F S1x512x1024 .bf16) (xs0 : Vec F S1024x1024 .f32) :
    out0_C_4 c i arg3 harg3 arg4 harg4 arg5 harg5 arg6 harg6 arg7 harg7 arg8 harg8 hc0 hc1 x0 x1 x2 x3 xs0 = k0_pay3 (k0_pay2 x0 x1 x2 x3 xs0) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz3]
  simp only [View.readAt_eq_ld, harg3.read_unread, harg4.read_unread, harg5.read_unread, harg6.read_unread, harg8.read_unread,
    View.ld_unit_zero (S := S1x1024x1024) hz3, View.ld_unit_zero (S := S1x1024x512) hz3, View.ld_unit_zero (S := S1x512x1024) hz3,
    View.ld_unit_zero (S := S1024x1024) hz2, View.readCov_unit_zero (S := S1024x1024) _ hz2]

end Cert.KernelIdeal.Acc

end
-- ==== Proof.Swiglu.lean ====
/-
  The mathematics of the layer, stated once over the extended reals.

  Eight experts; expert `e` owns rows `4096 e … 4096 e + 4095` of the token matrix, re-laid here as
  X[e, t, ·].  For a token row the layer computes the gate  g_h = ∑_q X[e,t,q] · W1[e,q,h]  and the
  up-projection  u_h = ∑_q X[e,t,q] · W3[e,q,h]  for each of the 4096 hidden columns `h`, the hidden value
  a_h = g_h · σ(g_h) · u_h  with  σ(g) = 1 / (1 + e^(−g)),  and the result  ∑_h a_h · W2[e,h,d].

  One program sums over all 4096 hidden columns at once; the other walks the hidden axis in eight tiles of
  512 columns, adding each tile's partial product to a running total that starts at zero.  Addition of
  extended reals is commutative and associative, so a sum may be split into consecutive tiles
  (`sum_tiles`) and a left-nested running total is the sum of its terms (`running_total`); nothing here
  needs the summands to be finite.
-/
import Idealize.ShloMosaic.PureOps.Ideal.Laws
import Idealize.ShloMosaic.Lib.ValueIdx

noncomputable section

open scoped BigOperators
open Idealize.ShloMosaic Idealize.ShloMosaic.ValueIdx

namespace Cert.Swiglu

/-- Tokens grouped by expert, [8, 4096, 1024]; also the down-projection weights [8, 4096, 1024] and the result. -/
abbrev STok : Shape := ⟨3, ![8, 4096, 1024]⟩
/-- The gate and up-projection weights, [8, 1024, 4096]. -/
abbrev SUp : Shape := ⟨3, ![8, 1024, 4096]⟩

/-- The gated activation of one hidden column: `g · σ(g) · u`. -/
def act (g u : EReal) : EReal := g * Ideal.logistic g * u

/-- Hidden column `h` of token `t` of expert `e`. -/
def hid (X : STok.Idx → EReal) (W1 W3 : SUp.Idx → EReal) (e : Fin 8) (t : Fin 4096) (h : Fin 4096) : EReal :=
  act (∑ q : Fin 1024, X (ix3 e t q) * W1 (ix3 e q h)) (∑ q : Fin 1024, X (ix3 e t q) * W3 (ix3 e q h))

/-- The layer's result at [e, t, d]: the hidden row against column `d` of expert `e`'s down-projection. -/
def layer (X : STok.Idx → EReal) (W1 W3 : SUp.Idx → EReal) (W2 : STok.Idx → EReal) : STok.Idx → EReal := fun i =>
  ∑ h : Fin 4096, hid X W1 W3 (i 0) (i 1) h * W2 (ix3 (i 0) h (i 2))

/-- Column `k` of hidden tile `j`: hidden column `512 j + k`. -/
def hcol (j : Fin 8) (k : Fin 512) : Fin 4096 := ⟨j.val * 512 + k.val, by omega⟩

/-- A sum over the 4096 hidden columns is the sum over the eight tiles of the sums inside each tile. -/
theorem sum_tiles {M : Type*} [AddCommMonoid M] (f : Fin 4096 → M) :
    ∑ h : Fin 4096, f h = ∑ j : Fin 8, ∑ k : Fin 512, f (hcol j k) := by
  rw [← (finProdFinEquiv (m := 8) (n := 512)).sum_comp f, Fintype.sum_prod_type]
  refine Finset.sum_congr rfl fun j _ => Finset.sum_congr rfl fun k _ => congrArg f (Fin.ext ?_)
  show k.val + 512 * j.val = j.val * 512 + k.val
  omega

/-- What hidden tile `j` adds to the result at `i`. -/
def tile (X : STok.Idx → EReal) (W1 W3 : SUp.Idx → EReal) (W2 : STok.Idx → EReal) (i : STok.Idx) (j : Fin 8) : EReal :=
  ∑ k : Fin 512, hid X W1 W3 (i 0) (i 1) (hcol j k) * W2 (ix3 (i 0) (hcol j k) (i 2))

/-- The layer's result is the sum of its eight tiles' contributions. -/
theorem layer_eq_tiles (X : STok.Idx → EReal) (W1 W3 : SUp.Idx → EReal) (W2 : STok.Idx → EReal) (i : STok.Idx) :
    layer X W1 W3 W2 i = ∑ j : Fin 8, tile X W1 W3 W2 i j :=
  sum_tiles fun h => hid X W1 W3 (i 0) (i 1) h * W2 (ix3 (i 0) h (i 2))

/-- A running total that starts at `0 + a 0` and adds `a (k+1)` at step `k+1` is, after step `n`, the sum of
    `a 0 … a n`. -/
theorem running_total {M : Type*} [AddCommMonoid M] (s a : ℕ → M) (n : ℕ) (h0 : s 0 = 0 + a 0)
    (hs : ∀ k, k < n → s (k + 1) = s k + a (k + 1)) : s n = ∑ j ∈ Finset.range (n + 1), a j := by
  induction n with
  | zero => rw [h0, zero_add, Finset.sum_range_one]
  | succ n ih =>
    rw [hs n (Nat.lt_succ_self n), ih fun k hk => hs k (Nat.lt_succ_of_lt hk), Finset.sum_range_succ _ (n + 1)]

/-- The two spellings of `σ`: the one-operation form and `1 / (1 + e^(−g))` written out with the host's
    operations are the same function of an extended real. -/
theorem logistic_spelled (g : Ideal .f32) :
    FloatOps.hostDivf (Ideal.ofBits .f32 0x3F800000#32) (FloatOps.addf (Ideal.ofBits .f32 0x3F800000#32) (FloatOps.hostUnary .exp (FloatOps.hostNegf g)))
      = Ideal.logistic g := by
  have h1 : Ideal.ofBits .f32 0x3F800000#32 = 1 := IdealRules.sign_bit.ideal_onePat .f32
  rw [h1]
  rfl

end Cert.Swiglu

end
-- ==== Proof.Payload.lean ====
/-
  One step's arithmetic at an index, over the extended reals.

  A step holds a [1, 1024, 1024] block `x` of token rows, [1, 1024, 512] blocks `w1`, `w3` of the gate and
  up-projection weights and a [1, 512, 1024] block `w2` of the down-projection weights.  At row `r` and output
  column `d` it adds to the accumulator
      ∑_{k < 512} act (∑_q x[0,r,q] · w1[0,q,k]) (∑_q x[0,r,q] · w3[0,q,k]) · w2[0,k,d]:
  each matrix product into a zero accumulator is the plain sum over the contracted axis, a change of float
  format is the identity, and the leading unit axis of a block is dropped or added without moving an entry.
-/
import proofs.«165596_j43654047597179_1_alg».proof.Proof.Gen.KernelIdeal.Skeleton
import proofs.«165596_j43654047597179_1_alg».proof.Proof.Swiglu
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.ShloMosaic.ValueIdx

namespace Cert.KernelIdeal.Acc

open Cert.KernelIdeal Cert.KernelIdeal.Gen Cert.Swiglu

/-! ## Where the two matrix products read their operands -/

theorem gate_lhs_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem gate_lhs_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem gate_rhs_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem gate_rhs_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

theorem down_lhs_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem down_lhs_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem down_rhs_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem down_rhs_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- A [1024, 1024] by [1024, 512] product into the zero block, at (r, k): the sum over the 1024 contracted positions. -/
theorem gate_apply (a : FVec Ideal S1024x1024 .bf16) (b : FVec Ideal S1024x512 .bf16) (r : Fin 1024) (k : Fin 512) :
    matmul dot_S1024x1024_S1024x512_S1024x512_1_0_0_1_n_n none a b (constant S1024x512 .f32 0x00000000#32) (ix2 r k)
      = ∑ q : Fin 1024, a (ix2 r q) * b (ix2 q k) := by
  simp only [matmul]
  rw [Ideal.matmul_constant_zero_apply, ← Equiv.sum_comp (ValueIdx.contrEquiv1 dot_S1024x1024_S1024x512_S1024x512_1_0_0_1_n_n 1024 rfl rfl).symm]
  refine Finset.sum_congr rfl fun q _ => ?_
  have hk := ValueIdx.contrEquiv1_symm_val dot_S1024x1024_S1024x512_S1024x512_1_0_0_1_n_n 1024 rfl rfl q
  have el : dot_S1024x1024_S1024x512_S1024x512_1_0_0_1_n_n.lhsIdx (ix2 r k) ((ValueIdx.contrEquiv1 dot_S1024x1024_S1024x512_S1024x512_1_0_0_1_n_n 1024 rfl rfl).symm q) = ix2 r q := funext fun a => Fin.ext (by
    match a with
    | ⟨0, _⟩ => exact gate_lhs_0 _ _
    | ⟨1, _⟩ => exact (gate_lhs_1 _ _).trans hk)
  have er : dot_S1024x1024_S1024x512_S1024x512_1_0_0_1_n_n.rhsIdx (ix2 r k) ((ValueIdx.contrEquiv1 dot_S1024x1024_S1024x512_S1024x512_1_0_0_1_n_n 1024 rfl rfl).symm q) = ix2 q k := funext fun a => Fin.ext (by
    match a with
    | ⟨0, _⟩ => exact (gate_rhs_0 _ _).trans hk
    | ⟨1, _⟩ => exact gate_rhs_1 _ _)
  rw [el, er]

/-- A [1024, 512] by [512, 1024] product into the zero block, at (r, d): the sum over the 512 contracted positions. -/
theorem down_apply (a : FVec Ideal S1024x512 .bf16) (b : FVec Ideal S512x1024 .bf16) (r : Fin 1024) (d : Fin 1024) :
    matmul dot_S1024x512_S512x1024_S1024x1024_1_0_0_1_n_n none a b (constant S1024x1024 .f32 0x00000000#32) (ix2 r d)
      = ∑ k : Fin 512, a (ix2 r k) * b (ix2 k d) := by
  simp only [matmul]
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 r d) ((ValueIdx.contrEquiv1 dot_S1024x512_S512x1024_S1024x1024_1_0_0_1_n_n 512 rfl rfl).symm k) = ix2 r k := funext fun a => Fin.ext (by
    match a with
    | ⟨0, _⟩ => exact down_lhs_0 _ _
    | ⟨1, _⟩ => exact (down_lhs_1 _ _).trans hk)
  have er : dot_S1024x512_S512x1024_S1024x1024_1_0_0_1_n_n.rhsIdx (ix2 r d) ((ValueIdx.contrEquiv1 dot_S1024x512_S512x1024_S1024x1024_1_0_0_1_n_n 512 rfl rfl).symm k) = ix2 k d := funext fun a => Fin.ext (by
    match a with
    | ⟨0, _⟩ => exact (down_rhs_0 _ _).trans hk
    | ⟨1, _⟩ => exact down_rhs_1 _ _)
  rw [el, er]

/-- A [1, A, B] block seen as [A, B]: entry (a, b) is entry (0, a, b). -/
theorem dropLead {A B : ℕ} {α : Type} (v : (⟨3, ![1, A, B]⟩ : Shape).Idx → α)
    (h : (⟨3, ![1, A, B]⟩ : Shape).ShapeCasts ⟨2, ![A, B]⟩) (a : Fin A) (b : Fin B) :
    shapeCast ⟨2, ![A, B]⟩ v h (ix2 a b) = v (ix3 0 a b) :=
  (shapeCast_dropUnit_apply ![A, B] v h (ix2 a b)).trans (congrArg v (funext fun x => by
    match x with
    | ⟨0, _⟩ => rfl
    | ⟨1, _⟩ => rfl
    | ⟨2, _⟩ => rfl))

/-- An [A, B] block stored as [1, A, B]: entry (0, a, b) is entry (a, b). -/
theorem addLead {A B : ℕ} {α : Type} (v : (⟨2, ![A, B]⟩ : Shape).Idx → α)
    (h : (⟨2, ![A, B]⟩ : Shape).ShapeCasts ⟨3, ![1, A, B]⟩) (z : Fin 1) (a : Fin A) (b : Fin B) :
    shapeCast ⟨3, ![1, A, B]⟩ v h (ix3 z a b) = v (ix2 a b) :=
  (shapeCast_addUnit_apply ![A, B] v h (ix3 z a b)).trans (congrArg v (funext fun x => by
    match x with
    | ⟨0, _⟩ => rfl
    | ⟨1, _⟩ => rfl))

/-- The one-operation form of `σ`, entry by entry. -/
theorem logistic_apply {s : Shape} (v : FVec Ideal s .f32) (i : s.Idx) : logistic v i = Ideal.logistic (v i) := rfl

/-- The zero block a first step stores. -/
theorem zero_block_apply (j : S1024x1024.Idx) : k0_pay1 (F := Ideal) j = 0 := by
  unfold k0_pay1
  rw [shapeCast_self]
  exact Ideal.ofBits_zero_f32

/-- THE STEP: the accumulator's new entry at (r, d) is its old entry plus the tile's partial product there. -/
theorem step_apply (x0 : Vec Ideal S1x1024x1024 .bf16) (x1 x2 : Vec Ideal S1x1024x512 .bf16) (x3 : Vec Ideal S1x512x1024 .bf16)
    (acc : Vec Ideal S1024x1024 .f32) (r d : Fin 1024) :
    k0_pay2 x0 x1 x2 x3 acc (ix2 r d)
      = acc (ix2 r d) + ∑ k : Fin 512,
          act (∑ q : Fin 1024, x0 (ix3 0 r q) * x1 (ix3 0 q k)) (∑ q : Fin 1024, x0 (ix3 0 r q) * x2 (ix3 0 q k)) * x3 (ix3 0 k d) := by
  unfold k0_pay2
  rw [shapeCast_self, addf_apply, down_apply]
  refine congrArg (acc (ix2 r d) + ·) (Finset.sum_congr rfl fun k _ => ?_)
  rw [truncf_apply, mulf_apply, mulf_apply, logistic_apply, gate_apply, gate_apply, dropLead]
  simp only [dropLead]
  rfl

/-- The output block of a last step: entry (0, r, d) is the accumulator's entry (r, d). -/
theorem emit_apply (acc : Vec Ideal S1024x1024 .f32) (z : Fin 1) (r d : Fin 1024) :
    k0_pay3 acc (ix3 z r d) = acc (ix2 r d) := by
  unfold k0_pay3
  exact addLead acc _ z r d

end Cert.KernelIdeal.Acc

end
-- ==== Proof.Accumulate.lean ====
/-
  The accumulator along the grid, and the result array.

  The grid has 256 points; point `t` is expert `t / 32`, token tile `(t / 8) % 4`, hidden tile `t % 8`.
  The eight consecutive points of one (expert, token tile) pair share the accumulator: by induction on the
  point it holds, after hidden tile `j`, the sum of the tiles `0 … j` of the layer's result for the pair's
  1024 token rows.  After tile 7 that is the layer's result itself, which the last step copies to the
  output block; the 32 written-back blocks tile the [8, 4096, 1024] result array.
-/
import proofs.«165596_j43654047597179_1_alg».proof.Proof.Pieces
import proofs.«165596_j43654047597179_1_alg».proof.Proof.Payload

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Swiglu

variable (m : (ℓ : Loc nD τ sig) → Buf (Elt Ideal) ℓ)

/-! ## The arrays the region finds, and where each window's block sits in them -/

/-- The tokens by expert, and the three weight arrays, as the region finds them. -/
abbrev Xarr (c : Dev nD) : STok.Idx → EReal := V m c main_v1
abbrev W1arr (c : Dev nD) : SUp.Idx → EReal := V m c main_v2
abbrev W3arr (c : Dev nD) : SUp.Idx → EReal := V m c main_v4
abbrev W2arr (c : Dev nD) : STok.Idx → EReal := V m c main_v3

/-- The block index of every window at every point, decided over the grid. -/
theorem block_index : ∀ t : Fin cfg0.N,
    win0_0.index t (0 : Fin 3) = t.val / 32 ∧ win0_0.index t (1 : Fin 3) = t.val / 8 % 4 ∧ win0_0.index t (2 : Fin 3) = 0
    ∧ win0_1.index t (0 : Fin 3) = t.val / 32 ∧ win0_1.index t (1 : Fin 3) = 0 ∧ win0_1.index t (2 : Fin 3) = t.val % 8
    ∧ win0_2.index t (0 : Fin 3) = t.val / 32 ∧ win0_2.index t (1 : Fin 3) = 0 ∧ win0_2.index t (2 : Fin 3) = t.val % 8
    ∧ win0_3.index t (0 : Fin 3) = t.val / 32 ∧ win0_3.index t (1 : Fin 3) = t.val % 8 ∧ win0_3.index t (2 : Fin 3) = 0
    ∧ win0_4.index t (0 : Fin 3) = t.val / 32 ∧ win0_4.index t (1 : Fin 3) = t.val / 8 % 4 ∧ win0_4.index t (2 : Fin 3) = 0 :=
  (by decide +kernel : ∀ t : Fin grid0.N, _)

/-- Entry (0, r, q) of the token block at point `t` is the tokens' entry [t/32, ((t/8)%4)·1024 + r, q]. -/
theorem xblk_apply (c : Dev nD) (t : Fin cfg0.N) (r q : Fin 1024) (I : STok.Idx)
    (h0 : (I 0).val = t.val / 32) (h1 : (I 1).val = t.val / 8 % 4 * 1024 + r.val) (h2 : (I 2).val = q.val) :
    (iblk m c 0 t : Vec Ideal S1x1024x1024 .bf16) (ix3 0 r q) = Xarr m c I := by
  obtain ⟨e0, e1, e2, -⟩ := block_index t
  unfold iblk
  rw [View.read_apply]
  show V m c main_v1 _ = V m c main_v1 I
  congr 1
  funext a
  apply Fin.ext
  match a with
  | ⟨0, _⟩ => show win0_0.index t (0 : Fin 3) * 1 + 1 * (0 : Fin 1).val = (I 0).val; rw [e0, h0]; simp
  | ⟨1, _⟩ => show win0_0.index t (1 : Fin 3) * 1024 + 1 * r.val = (I 1).val; omega
  | ⟨2, _⟩ => show win0_0.index t (2 : Fin 3) * 1024 + 1 * q.val = (I 2).val; omega

/-- Entry (0, q, k) of the gate-weight block at point `t` is W1's entry [t/32, q, (t%8)·512 + k]. -/
theorem gblk_apply (c : Dev nD) (t : Fin cfg0.N) (q : Fin 1024) (k : Fin 512) (I : SUp.Idx)
    (h0 : (I 0).val = t.val / 32) (h1 : (I 1).val = q.val) (h2 : (I 2).val = t.val % 8 * 512 + k.val) :
    (iblk m c 1 t : Vec Ideal S1x1024x512 .bf16) (ix3 0 q k) = W1arr m c I := by
  obtain ⟨-, -, -, e0, e1, e2, -⟩ := block_index t
  unfold iblk
  rw [View.read_apply]
  show V m c main_v2 _ = V m c main_v2 I
  congr 1
  funext a
  apply Fin.ext
  match a with
  | ⟨0, _⟩ => show win0_1.index t (0 : Fin 3) * 1 + 1 * (0 : Fin 1).val = (I 0).val; rw [e0, h0]; simp
  | ⟨1, _⟩ => show win0_1.index t (1 : Fin 3) * 1024 + 1 * q.val = (I 1).val; omega
  | ⟨2, _⟩ => show win0_1.index t (2 : Fin 3) * 512 + 1 * k.val = (I 2).val; omega

/-- Entry (0, q, k) of the up-projection block at point `t` is W3's entry [t/32, q, (t%8)·512 + k]. -/
theorem ublk_apply (c : Dev nD) (t : Fin cfg0.N) (q : Fin 1024) (k : Fin 512) (I : SUp.Idx)
    (h0 : (I 0).val = t.val / 32) (h1 : (I 1).val = q.val) (h2 : (I 2).val = t.val % 8 * 512 + k.val) :
    (iblk m c 2 t : Vec Ideal S1x1024x512 .bf16) (ix3 0 q k) = W3arr m c I := by
  obtain ⟨-, -, -, -, -, -, e0, e1, e2, -⟩ := block_index t
  unfold iblk
  rw [View.read_apply]
  show V m c main_v4 _ = V m c main_v4 I
  congr 1
  funext a
  apply Fin.ext
  match a with
  | ⟨0, _⟩ => show win0_2.index t (0 : Fin 3) * 1 + 1 * (0 : Fin 1).val = (I 0).val; rw [e0, h0]; simp
  | ⟨1, _⟩ => show win0_2.index t (1 : Fin 3) * 1024 + 1 * q.val = (I 1).val; omega
  | ⟨2, _⟩ => show win0_2.index t (2 : Fin 3) * 512 + 1 * k.val = (I 2).val; omega

/-- Entry (0, k, d) of the down-projection block at point `t` is W2's entry [t/32, (t%8)·512 + k, d]. -/
theorem dblk_apply (c : Dev nD) (t : Fin cfg0.N) (k : Fin 512) (d : Fin 1024) (I : STok.Idx)
    (h0 : (I 0).val = t.val / 32) (h1 : (I 1).val = t.val % 8 * 512 + k.val) (h2 : (I 2).val = d.val) :
    (iblk m c 3 t : Vec Ideal S1x512x1024 .bf16) (ix3 0 k d) = W2arr m c I := by
  obtain ⟨-, -, -, -, -, -, -, -, -, e0, e1, e2, -⟩ := block_index t
  unfold iblk
  rw [View.read_apply]
  show V m c main_v3 _ = V m c main_v3 I
  congr 1
  funext a
  apply Fin.ext
  match a with
  | ⟨0, _⟩ => show win0_3.index t (0 : Fin 3) * 1 + 1 * (0 : Fin 1).val = (I 0).val; rw [e0, h0]; simp
  | ⟨1, _⟩ => show win0_3.index t (1 : Fin 3) * 512 + 1 * k.val = (I 1).val; omega
  | ⟨2, _⟩ => show win0_3.index t (2 : Fin 3) * 1024 + 1 * d.val = (I 2).val; omega

/-! ## One step, in terms of the arrays -/

theorem N256 : cfg0.N = 256 := N_0

/-- The result index that row `r`, column `d` of point `t`'s accumulator belongs to. -/
def outIdx (t : Fin cfg0.N) (r d : Fin 1024) : STok.Idx :=
  ix3 ⟨t.val / 32, by have h : t.val < 256 := lt_of_lt_of_eq t.isLt N256; omega⟩
    ⟨t.val / 8 % 4 * 1024 + r.val, by have := r.isLt; omega⟩ d

/-- Point `t`'s hidden tile. -/
def hiOf (t : Fin cfg0.N) : Fin 8 := ⟨t.val % 8, Nat.mod_lt _ (by decide)⟩

/-- At point `t` the step adds hidden tile `t % 8`'s contribution to the accumulator's entry (r, d). -/
theorem step_at (c : Dev nD) (t : Fin cfg0.N) (acc : Vec Ideal S1024x1024 .f32) (r d : Fin 1024) :
    k0_pay2 (iblk m c 0 t) (iblk m c 1 t) (iblk m c 2 t) (iblk m c 3 t) acc (ix2 r d)
      = acc (ix2 r d) + tile (Xarr m c) (W1arr m c) (W3arr m c) (W2arr m c) (outIdx t r d) (hiOf t) := by
  refine (step_apply (iblk m c 0 t) (iblk m c 1 t) (iblk m c 2 t) (iblk m c 3 t) acc r d).trans ?_
  refine congrArg (acc (ix2 r d) + ·) ?_
  unfold tile hid
  refine Finset.sum_congr rfl fun k _ => ?_
  have hx : ∀ q : Fin 1024, (iblk m c 0 t : Vec Ideal S1x1024x1024 .bf16) (ix3 0 r q) = Xarr m c (ix3 (outIdx t r d 0) (outIdx t r d 1) q) :=
    fun q => xblk_apply m c t r q _ rfl rfl rfl
  have hg : ∀ q : Fin 1024, (iblk m c 1 t : Vec Ideal S1x1024x512 .bf16) (ix3 0 q k) = W1arr m c (ix3 (outIdx t r d 0) q (hcol (hiOf t) k)) :=
    fun q => gblk_apply m c t q k _ rfl rfl rfl
  have hu : ∀ q : Fin 1024, (iblk m c 2 t : Vec Ideal S1x1024x512 .bf16) (ix3 0 q k) = W3arr m c (ix3 (outIdx t r d 0) q (hcol (hiOf t) k)) :=
    fun q => ublk_apply m c t q k _ rfl rfl rfl
  have hd : (iblk m c 3 t : Vec Ideal S1x512x1024 .bf16) (ix3 0 k d) = W2arr m c (ix3 (outIdx t r d 0) (hcol (hiOf t) k) (outIdx t r d 2)) :=
    dblk_apply m c t k d _ rfl rfl rfl
  simp only [hx, hg, hu, hd]

/-! ## The accumulator after each point -/

/-- After a first step: the zero block plus the step's product. -/
theorem scratch_at_first (c : Dev nD) (t : Fin cfg0.N) (h0 : t.val % 8 = 0) :
    (outsAt0 m c t.val t.isLt).2 = k0_pay2 (iblk m c 0 t) (iblk m c 1 t) (iblk m c 2 t) (iblk m c 3 t) (k0_pay1 (F := Ideal)) := by
  have h1 : ¬t.val % 8 = 7 := by omega
  rw [outsAt0_A m c t h0 h1]
  dsimp only
  exact scratch_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- After any later step: what the point before left plus the step's product. -/
theorem scratch_at_later (c : Dev nD) (t : Fin cfg0.N) (h0 : ¬t.val % 8 = 0) :
    (outsAt0 m c t.val t.isLt).2 = k0_pay2 (iblk m c 0 t) (iblk m c 1 t) (iblk m c 2 t) (iblk m c 3 t) (outsAt0 m c (t.val - 1) (Nat.lt_of_le_of_lt (Nat.sub_le _ _) t.isLt)).2 := by
  by_cases h1 : t.val % 8 = 7
  · rw [outsAt0_C m c t h0 h1]
    dsimp only
    exact scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact scratch_mid (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- After a last step the output block is the accumulator, re-laid. -/
theorem out_at_last (c : Dev nD) (t : Fin cfg0.N) (h1 : t.val % 8 = 7) :
    (outsAt0 m c t.val t.isLt).1 = k0_pay3 (outsAt0 m c t.val t.isLt).2 := by
  have h0 : ¬t.val % 8 = 0 := by omega
  rw [outsAt0_C m c t h0 h1]
  dsimp only
  exact (out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans
    (congrArg k0_pay3 (scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm)

/-- Tile `j`'s contribution to the result at `i`, for any natural `j` (there is no ninth tile). -/
def tileN (c : Dev nD) (i : STok.Idx) (j : ℕ) : EReal :=
  if h : j < 8 then tile (Xarr m c) (W1arr m c) (W3arr m c) (W2arr m c) i ⟨j, h⟩ else 0

/-- THE INVARIANT: after point `n` the accumulator's entry (r, d) is the sum of the tiles `0 … n % 8` of the result
    entry it belongs to. By induction on the point: a first step starts the sum, a later step extends the sum the
    point before left, which belongs to the same result entry. -/
theorem scratch_eq (c : Dev nD) : ∀ (n : ℕ) (hn : n < cfg0.N) (r d : Fin 1024),
    (outsAt0 m c n hn).2 (ix2 r d) = ∑ j ∈ Finset.range (n % 8 + 1), tileN m c (outIdx ⟨n, hn⟩ r d) j := by
  intro n
  induction n using Nat.strong_induction_on with
  | _ n ih =>
    intro hn r d
    by_cases h0 : n % 8 = 0
    · refine (congrFun (scratch_at_first m c ⟨n, hn⟩ h0) (ix2 r d)).trans ?_
      rw [step_at, zero_block_apply, zero_add, h0, Finset.sum_range_one]
      unfold tileN
      rw [dif_pos (by decide : 0 < 8)]
      exact congrArg _ (Fin.ext h0)
    · have hN : n < 256 := lt_of_lt_of_eq hn N256
      have hp : n - 1 < cfg0.N := Nat.lt_of_le_of_lt (Nat.sub_le _ _) hn
      refine (congrFun (scratch_at_later m c ⟨n, hn⟩ h0) (ix2 r d)).trans ?_
      rw [step_at, Finset.sum_range_succ]
      have hI : outIdx ⟨n - 1, hp⟩ r d = outIdx ⟨n, hn⟩ r d := by
        unfold outIdx
        congr 1 <;> (apply Fin.ext; show _ = _; dsimp only; omega)
      have hk : (n - 1) % 8 + 1 = n % 8 := by omega
      refine congrArg₂ (· + ·) ?_ ?_
      · refine (ih (n - 1) (by omega) hp r d).trans ?_
        rw [hI, hk]
      · unfold tileN
        rw [dif_pos (Nat.mod_lt n (by decide))]
        rfl

/-! ## The result array -/

/-- The layer's result over the arrays the region finds, as contents of the region's result array. -/
abbrev Gout (c : Dev nD) : Buf (Elt Ideal) ((c : Thread nD τ).loc main_v5) :=
  layer (Xarr m c) (W1arr m c) (W3arr m c) (W2arr m c)

/-- WHAT A LAST STEP WRITES BACK is its block of the layer's result: the accumulator then holds all eight tiles. -/
theorem last_step_writes_layer (c : Dev nD) (t : Fin cfg0.N) (hf : (cfg0.win 4).flush t = true) :
    (dats m 0 c).flushed 4 t = ((cfg0.win 4).blk t).view.read (Elt Ideal) (Gout m c) := by
  have h7 : t.val % 8 = 7 := (flush0_4 t).mp hf
  obtain ⟨-, -, -, -, -, -, -, -, -, -, -, -, e0, e1, e2⟩ := block_index t
  show (cfg0.win 4).cut (grid0.coords t) ((dats m 0 c).after 4 t) = _
  rw [after0_4, out_at_last m c t h7]
  funext y
  obtain ⟨z, r, d, rfl⟩ : ∃ (z : Fin 1) (r d : Fin 1024), y = ix3 z r d :=
    ⟨y 0, y 1, y 2, eq_ix3 (n0 := 1) (n1 := 1024) (n2 := 1024) y⟩
  rw [View.read_apply]
  show k0_pay3 (outsAt0 m c t.val t.isLt).2 (ix3 z r d) = Gout m c (((cfg0.win 4).blk t).view.emb (ix3 z r d))
  have hI : ((cfg0.win 4).blk t).view.emb (ix3 z r d) = outIdx t r d := funext fun a => Fin.ext (by
    match a with
    | ⟨0, _⟩ => show win0_4.index t (0 : Fin 3) * 1 + 1 * z.val = t.val / 32; rw [e0]; omega
    | ⟨1, _⟩ => show win0_4.index t (1 : Fin 3) * 1024 + 1 * r.val = t.val / 8 % 4 * 1024 + r.val; rw [e1]; omega
    | ⟨2, _⟩ => show win0_4.index t (2 : Fin 3) * 1024 + 1 * d.val = d.val; rw [e2]; omega)
  rw [hI, emit_apply, scratch_eq m c t.val t.isLt r d, h7, Finset.sum_range]
  show _ = layer (Xarr m c) (W1arr m c) (W3arr m c) (W2arr m c) (outIdx t r d)
  rw [layer_eq_tiles]
  refine Finset.sum_congr rfl fun j _ => ?_
  unfold tileN
  rw [dif_pos j.isLt]

/-- An index of the result array is in point `t`'s block iff each coordinate is in the block's range on its axis. -/
theorem mem_out_block (t : Fin cfg0.N) (i : STok.Idx) :
    i ∈ ((cfg0.win 4).blk t).view.set ↔ ∀ a : Fin 3, win0_4.index t a * S1x1024x1024.size a ≤ (i a).val
      ∧ (i a).val < win0_4.index t a * S1x1024x1024.size a + S1x1024x1024.size a := by
  show i ∈ ((View.whole main_v5).slice (win0_4.rect t)).set ↔ _
  rw [View.set_slice_whole, Rect.mem_set_unit]
  exact Iff.rfl

/-- Every entry [e, T, d] of the result array is in the block the last step of (expert e, token tile T / 1024) writes. -/
theorem out_blocks_cover (i : STok.Idx) : ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 1024 := (i 2).isLt
  have hlt : (i 0).val * 32 + (i 1).val / 1024 * 8 + 7 < cfg0.N := by rw [N256]; omega
  obtain ⟨-, -, -, -, -, -, -, -, -, -, -, -, e0, e1, e2⟩ := block_index ⟨_, hlt⟩
  refine ⟨⟨_, hlt⟩, (flush0_4 _).mpr (by show ((i 0).val * 32 + (i 1).val / 1024 * 8 + 7) % 8 = 7; omega), ?_⟩
  rw [mem_out_block]
  intro a
  match a with
  | ⟨0, _⟩ =>
    show win0_4.index ⟨_, hlt⟩ (0 : Fin 3) * 1 ≤ (i 0).val ∧ (i 0).val < win0_4.index ⟨_, hlt⟩ (0 : Fin 3) * 1 + 1
    rw [e0]; dsimp only; omega
  | ⟨1, _⟩ =>
    show win0_4.index ⟨_, hlt⟩ (1 : Fin 3) * 1024 ≤ (i 1).val ∧ (i 1).val < win0_4.index ⟨_, hlt⟩ (1 : Fin 3) * 1024 + 1024
    rw [e1]; dsimp only; omega
  | ⟨2, _⟩ =>
    show win0_4.index ⟨_, hlt⟩ (2 : Fin 3) * 1024 ≤ (i 2).val ∧ (i 2).val < win0_4.index ⟨_, hlt⟩ (2 : Fin 3) * 1024 + 1024
    rw [e2]; omega

/-- So the region's result array ends holding the layer's result. -/
theorem result_array (c : Dev nD) : (dats m 0 c).arrAt 4 cfg0.N = Gout m c :=
  (dats m 0 c).arrAt_eq_of_cover 4 (Gout m c) (last_step_writes_layer m c) out_blocks_cover

/-! ## Around the region: the host lines before and after it -/

/-- The tokens as the region finds them: the token matrix re-laid by expert (the narrowing to bf16 is the identity here). -/
theorem Xarr_eq (c : Dev nD) :
    Xarr m c = shapeCast S8x4096x1024 (m ((c : Thread nD τ).loc main_arg0)) shapeCasts_S32768x1024_S8x4096x1024 := by
  show StableHlo.after hostOps0 (fun b => m (c, b)) (Proc.devRef .tc main_v1) = _
  after_results
  rfl

/-- The three weight arrays as the region finds them: the arguments (narrowed, which is the identity here). -/
theorem W1arr_eq (c : Dev nD) : W1arr m c = m ((c : Thread nD τ).loc main_arg1) := by
  show StableHlo.after hostOps0 (fun b => m (c, b)) (Proc.devRef .tc main_v2) = _
  after_results
  rfl
theorem W2arr_eq (c : Dev nD) : W2arr m c = m ((c : Thread nD τ).loc main_arg2) := by
  show StableHlo.after hostOps0 (fun b => m (c, b)) (Proc.devRef .tc main_v3) = _
  after_results
  rfl
theorem W3arr_eq (c : Dev nD) : W3arr m c = m ((c : Thread nD τ).loc main_arg3) := by
  show StableHlo.after hostOps0 (fun b => m (c, b)) (Proc.devRef .tc main_v4) = _
  after_results
  rfl

/-- The program's result: the layer of the re-laid tokens and the weights, flattened back to [32768, 1024]. -/
abbrev result (c : Dev nD) : Buf (Elt Ideal) ((c : Thread nD τ).loc main_v6) :=
  shapeCast S32768x1024
    (layer (shapeCast S8x4096x1024 (m ((c : Thread nD τ).loc main_arg0)) shapeCasts_S32768x1024_S8x4096x1024)
      (m ((c : Thread nD τ).loc main_arg1)) (m ((c : Thread nD τ).loc main_arg3)) (m ((c : Thread nD τ).loc main_arg2)))
    shapeCasts_S8x4096x1024_S32768x1024

/-- The line after the region flattens the region's result array. -/
theorem tail_eq (c : Dev nD) :
    Pipeline.afterTail₀ cfgs (dats m) 0 (V0 m) [hostOps1] c main_v6 = result m c := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5) = Gout m c :=
    (Pipeline.withArrays_arr spec0 launch0.win.arr_inj c _ _ 4).trans (result_array m c)
  have hG : Gout m c = layer (shapeCast S8x4096x1024 (m ((c : Thread nD τ).loc main_arg0)) shapeCasts_S32768x1024_S8x4096x1024)
      (m ((c : Thread nD τ).loc main_arg1)) (m ((c : Thread nD τ).loc main_arg3)) (m ((c : Thread nD τ).loc main_arg2)) := by
    show layer (Xarr m c) (W1arr m c) (W3arr m c) (W2arr m c) = _
    rw [Xarr_eq, W1arr_eq, W3arr_eq, W2arr_eq]
  exact congrArg (fun A => shapeCast S32768x1024 A shapeCasts_S8x4096x1024_S32768x1024) (hw.trans hG)

/-- THE RUN, READ: every execution ends with the result buffer at the layer's flattened result and the arguments as
    they were. -/
theorem run (ρ : Dev nD → PrngReg) :
    θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Acc

end
-- ==== Proof.RefLayer.lean ====
/-
  The reference program computes the layer.

  Its last matrix product contracts the 4096 hidden columns of  silu(X·W1) ⊙ (X·W3)  against the
  down-projection; `silu(g) = g · (1 / (1 + e^(−g)))` is written out there with negate, exponential, add and
  divide, and is `g · σ(g)` entry by entry.
-/
import proofs.«165596_j43654047597179_1_alg».proof.Proof.Gen.ReferenceIdeal.Read
import proofs.«165596_j43654047597179_1_alg».proof.Proof.Swiglu

noncomputable section

open scoped BigOperators
open Idealize.ShloMosaic Idealize.ShloMosaic.ValueIdx

namespace Cert.ReferenceIdeal.RefLayer

open Cert.ReferenceIdeal Cert.ReferenceIdeal.Read Cert.Swiglu

theorem lidx_v1 (j : S8x4096x4096.Idx) (k : Fin 1024) : lidx_main_v1 j k = ix3 (j 0) (j 1) k :=
  funext fun a => by match a with | ⟨0, _⟩ => rfl | ⟨1, _⟩ => rfl | ⟨2, _⟩ => rfl
theorem ridx_v1 (j : S8x4096x4096.Idx) (k : Fin 1024) : ridx_main_v1 j k = ix3 (j 0) k (j 2) :=
  funext fun a => by match a with | ⟨0, _⟩ => rfl | ⟨1, _⟩ => rfl | ⟨2, _⟩ => rfl
theorem lidx_v2 (j : S8x4096x4096.Idx) (k : Fin 1024) : lidx_main_v2 j k = ix3 (j 0) (j 1) k :=
  funext fun a => by match a with | ⟨0, _⟩ => rfl | ⟨1, _⟩ => rfl | ⟨2, _⟩ => rfl
theorem ridx_v2 (j : S8x4096x4096.Idx) (k : Fin 1024) : ridx_main_v2 j k = ix3 (j 0) k (j 2) :=
  funext fun a => by match a with | ⟨0, _⟩ => rfl | ⟨1, _⟩ => rfl | ⟨2, _⟩ => rfl
theorem lidx_v5 (i : S8x4096x1024.Idx) (h : Fin 4096) : lidx_main_v5 i h = ix3 (i 0) (i 1) h :=
  funext fun a => by match a with | ⟨0, _⟩ => rfl | ⟨1, _⟩ => rfl | ⟨2, _⟩ => rfl
theorem ridx_v5 (i : S8x4096x1024.Idx) (h : Fin 4096) : ridx_main_v5 i h = ix3 (i 0) h (i 2) :=
  funext fun a => by match a with | ⟨0, _⟩ => rfl | ⟨1, _⟩ => rfl | ⟨2, _⟩ => rfl

/-- The activated hidden value the reference feeds its last product, at [e, t, h]. -/
theorem hidden_apply (x0 : (⟨S32768x1024, .f32⟩ : BufTy).Contents (Elt Ideal)) (x1 x3 : (⟨S8x1024x4096, .f32⟩ : BufTy).Contents (Elt Ideal))
    (e : Fin 8) (t h : Fin 4096) :
    val_main_v4 (F := Ideal) x0 x1 x3 (ix3 e t h) = hid (val_main_v0 (F := Ideal) x0) x1 x3 e t h := by
  rw [val_main_v4_apply, val_main_v3_apply, val_main_call0_v5_apply, val_main_call0_v4_apply, val_main_call0_cst_0_apply,
    val_main_call0_v3_apply, val_main_call0_v2_apply, val_main_call0_cst_apply, val_main_call0_v1_apply, val_main_call0_v0_apply,
    val_main_v1_apply, val_main_v2_apply]
  simp only [lidx_v1, ridx_v1, lidx_v2, ridx_v2]
  unfold hid act
  exact congrArg (fun s => (∑ q : Fin 1024, val_main_v0 (F := Ideal) x0 (ix3 e t q) * x1 (ix3 e q h)) * s
      * ∑ q : Fin 1024, val_main_v0 (F := Ideal) x0 (ix3 e t q) * x3 (ix3 e q h))
    (logistic_spelled (∑ q : Fin 1024, val_main_v0 (F := Ideal) x0 (ix3 e t q) * x1 (ix3 e q h)))

/-- The reference's last product is the layer of the re-laid tokens and the three weight arrays. -/
theorem ref_layer (x0 : (⟨S32768x1024, .f32⟩ : BufTy).Contents (Elt Ideal)) (x1 x3 : (⟨S8x1024x4096, .f32⟩ : BufTy).Contents (Elt Ideal))
    (x2 : (⟨S8x4096x1024, .f32⟩ : BufTy).Contents (Elt Ideal)) :
    val_main_v5 (F := Ideal) x0 x1 x2 x3 = layer (val_main_v0 (F := Ideal) x0) x1 x3 x2 := by
  funext i
  rw [val_main_v5_apply]
  unfold layer
  refine Finset.sum_congr rfl fun h _ => ?_
  rw [lidx_v5, ridx_v5]
  exact congrArg (· * x2 (ix3 (i 0) h (i 2))) (hidden_apply x0 x1 x3 (i 0) (i 1) h)

end Cert.ReferenceIdeal.RefLayer

end
-- ==== Proof.lean ====
/-
  A mixture-of-experts gated feed-forward layer, tiled, against its plain statement.

  32768 token rows of width 1024 are split evenly over 8 experts, 4096 consecutive rows each.  For a token
  row `x` of expert `e` both programs compute
      out_d = ∑_{h < 4096} silu(∑_q x_q · W1[e,q,h]) · (∑_q x_q · W3[e,q,h]) · W2[e,h,d],   silu(g) = g / (1 + e^(−g)).
  The reference states it with three batched matrix products.  The kernel walks a grid of (expert, 1024-row
  token tile, 512-column hidden tile): every step forms the tile's slice of the hidden row and adds its product
  with the matching 512 rows of W2 into an accumulator that the first hidden tile resets to zero and the
  eighth copies out.  Read over the extended reals a change of float format is the identity, so the only
  difference is the grouping of the hidden sum, `0 + t₀ + … + t₇` tile by tile against one sum of 4096 terms;
  addition there is commutative and associative, and the two are equal without any appeal to finiteness.

  The pieces: `Swiglu` states the layer and the regrouping; `RefLayer` reads the reference as the layer;
  `Pieces` and `Payload` read one kernel step as "accumulator plus tile"; `Accumulate` carries the
  accumulator along the grid by induction and assembles the result array.  The idealization changed no
  operation, so there is nothing to preserve.
-/
import proofs.«165596_j43654047597179_1_alg».proof.Defs
import proofs.«165596_j43654047597179_1_alg».proof.Proof.Gen.Kernel
import proofs.«165596_j43654047597179_1_alg».proof.Proof.Gen.Kernel.Skeleton
import proofs.«165596_j43654047597179_1_alg».proof.Proof.Gen.Kernel.Launch
import proofs.«165596_j43654047597179_1_alg».proof.Proof.Gen.Kernel.Points
import proofs.«165596_j43654047597179_1_alg».proof.Proof.Gen.Kernel.Frame
import proofs.«165596_j43654047597179_1_alg».proof.Proof.Gen.KernelIdeal
import proofs.«165596_j43654047597179_1_alg».proof.Proof.Gen.KernelIdeal.Skeleton
import proofs.«165596_j43654047597179_1_alg».proof.Proof.Gen.KernelIdeal.Launch
import proofs.«165596_j43654047597179_1_alg».proof.Proof.Gen.KernelIdeal.Points
import proofs.«165596_j43654047597179_1_alg».proof.Proof.Gen.KernelIdeal.Frame
import proofs.«165596_j43654047597179_1_alg».proof.Proof.Gen.ReferenceIdeal
import proofs.«165596_j43654047597179_1_alg».proof.Proof.Gen.ReferenceIdeal.Run
import proofs.«165596_j43654047597179_1_alg».proof.Proof.Gen.ReferenceIdeal.Read
import proofs.«165596_j43654047597179_1_alg».proof.Proof.Gen.Pre_finite_inputs
import proofs.«165596_j43654047597179_1_alg».proof.Proof.Accumulate
import proofs.«165596_j43654047597179_1_alg».proof.Proof.RefLayer
import Idealize.ShloMosaic.Adequacy
import Idealize.ShloMosaic.Init

noncomputable section

namespace Cert.Proof

open Idealize.ShloMosaic Idealize.SL.Sem

/-- Both kernel programs run to the end and leave their arguments alone: the generated frames. -/
theorem frame_k : Cert.frame_Kernel := fun m ρ _ => Cert.Kernel.Gen.frame m ρ
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end at the layer of the re-laid tokens and the weights, flattened: the kernel by its accumulated
    tiles, the reference by its three products. -/
theorem algebraic : Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq]
  unfold Cert.ReferenceIdeal.Read.val_main_v6
  rw [Cert.ReferenceIdeal.RefLayer.ref_layer, (hagree c).1, (hagree c).2.1, (hagree c).2.2.1, (hagree c).2.2.2.1]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
